-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x1024x3 : Shape := ⟨4, ![8, 32, 1024, 3]⟩
abbrev S_ : Shape := ⟨0, ![]⟩

class Facts : Prop where
  bcast_S_S8x32x1024x3 : S_.BroadcastsInDim S8x32x1024x3 (![] : Fin 0 → Fin S8x32x1024x3.rank)
  reducesTo_S8x32x1024x3_S_d0_1_2_3 : S8x32x1024x3.ReducesTo [0, 1, 2, 3] S_
  h_S_ : 0 < S_.numel

variable [Facts]

def fn {F : FTy → Type} [FloatOps F] (main_arg0 : FVec F S8x32x1024x3 .f32) (main_arg1 : FVec F S8x32x1024x3 .f32) : IVec S_ 1 :=
  let main_v0 : FVec F S8x32x1024x3 .f32 := Host.absf main_arg0
  let main_cst : FVec F S_ .f32 := constant S_ .f32 0x7F800000#32
  let main_v1 : FVec F S8x32x1024x3 .f32 := broadcastInDim S8x32x1024x3 ![] bcast_S_S8x32x1024x3 main_cst
  let main_v2 : IVec S8x32x1024x3 1 := cmpf .olt main_v0 main_v1
  let main_c : IVec S_ 1 := constantI S_ 1 1#1
  let main_v3 : IVec S_ 1 := (fun x v => Host.reduce IntOp.andi x v reducesTo_S8x32x1024x3_S_d0_1_2_3 h_S_) main_v2 main_c
  let main_v4 : FVec F S8x32x1024x3 .f32 := Host.absf main_arg1
  let main_cst_0 : FVec F S_ .f32 := constant S_ .f32 0x7F800000#32
  let main_v5 : FVec F S8x32x1024x3 .f32 := broadcastInDim S8x32x1024x3 ![] bcast_S_S8x32x1024x3 main_cst_0
  let main_v6 : IVec S8x32x1024x3 1 := cmpf .olt main_v4 main_v5
  let main_c_1 : IVec S_ 1 := constantI S_ 1 1#1
  let main_v7 : IVec S_ 1 := (fun x v => Host.reduce IntOp.andi x v reducesTo_S8x32x1024x3_S_d0_1_2_3 h_S_) main_v6 main_c_1
  let main_v8 : IVec S_ 1 := andi main_v3 main_v7
  main_v8
-- ==== Kernel.lean ====
abbrev S8x32x1024x3 : Shape := ⟨4, ![8, 32, 1024, 3]⟩
abbrev S8x32x3x1024 : Shape := ⟨4, ![8, 32, 3, 1024]⟩
abbrev S256x1024x3 : Shape := ⟨3, ![256, 1024, 3]⟩
abbrev S256x1x128 : Shape := ⟨3, ![256, 1, 128]⟩
abbrev S1x1024x3 : Shape := ⟨3, ![1, 1024, 3]⟩
abbrev S1x1x128 : Shape := ⟨3, ![1, 1, 128]⟩
abbrev S1024x3 : Shape := ⟨2, ![1024, 3]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S1x128 : Shape := ⟨2, ![1, 128]⟩
abbrev S256x1x1 : Shape := ⟨3, ![256, 1, 1]⟩
abbrev S256 : Shape := ⟨1, ![256]⟩
abbrev S_ : Shape := ⟨0, ![]⟩

abbrev nBuf : Space → Nat
  | .hbm => 19
  | .vmem => 6
  | .smem => 0
  | _ => 0

abbrev bufTy : (tb : Table) → Fin (tcTables nBuf tb) → BufTy
  | .hbm, ⟨0, _⟩ => ⟨S8x32x1024x3, .f32⟩
  | .hbm, ⟨1, _⟩ => ⟨S8x32x1024x3, .f32⟩
  | .hbm, ⟨2, _⟩ => ⟨S8x32x3x1024, .f32⟩
  | .hbm, ⟨3, _⟩ => ⟨S256x1024x3, .f32⟩
  | .hbm, ⟨4, _⟩ => ⟨S256x1024x3, .f32⟩
  | .hbm, ⟨5, _⟩ => ⟨S256x1x128, .f32⟩
  | .hbm, ⟨6, _⟩ => ⟨S256x1x1, .f32⟩
  | .hbm, ⟨7, _⟩ => ⟨S256, .f32⟩
  | .hbm, ⟨8, _⟩ => ⟨S256x1x1, .f32⟩
  | .hbm, ⟨9, _⟩ => ⟨S256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x128, .f32⟩
  | .local _ .vmem, ⟨5, _⟩ => ⟨S1x1x128, .f32⟩
  | _, _ => ⟨S8x32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8x32x1024x3_S8x32x3x1024_0_1_3_2 : S8x32x1024x3.Transposes [0, 1, 3, 2] S8x32x3x1024
  shapeCasts_S8x32x3x1024_S256x1024x3 : S8x32x3x1024.ShapeCasts S256x1024x3
  shapeCasts_S8x32x1024x3_S256x1024x3 : S8x32x1024x3.ShapeCasts S256x1024x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  bitsLt_bf16_f32 : FTy.bits .bf16 < FTy.bits .f32
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  iota_S1x128_d1_w32 : S1x128.Iotas .tc 32 [1]
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S256x1x128_S256x1x1_0_0_0 : S256x1x128.Slices ![0, 0, 0] S256x1x1
  shapeCasts_S256x1x1_S256 : S256x1x1.ShapeCasts S256
  slices_S256x1x128_S256x1x1_0_0_1 : S256x1x128.Slices ![0, 0, 1] S256x1x1
  reducesTo_S256_S_d0 : S256.ReducesTo [0] S_
  h_S_ : 0 < S_.numel
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S256x1024x3.size a
  hwx0_0 : ∀ i : grid0.Coords, EltTy.bits .f32 = 32 ∨ (Rect.block (s := S256x1024x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S256x1024x3.size a
  hwx0_1 : ∀ i : grid0.Coords, EltTy.bits .f32 = 32 ∨ (Rect.block (s := S256x1024x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S256x1x128.size a
  hwx0_2 : ∀ i : grid0.Coords, EltTy.bits .f32 = 32 ∨ (Rect.block (s := S256x1x128) S1x1x128.size (cc0_transform_2 i) (hinb0_2 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_v1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x1024x3 : Shape := ⟨4, ![8, 32, 1024, 3]⟩
abbrev S8x32x3x1024 : Shape := ⟨4, ![8, 32, 3, 1024]⟩
abbrev S256x1024x3 : Shape := ⟨3, ![256, 1024, 3]⟩
abbrev S_ : Shape := ⟨0, ![]⟩
abbrev S256x1024 : Shape := ⟨2, ![256, 1024]⟩
abbrev S256x1024x1024 : Shape := ⟨3, ![256, 1024, 1024]⟩
abbrev S256x1024x1 : Shape := ⟨3, ![256, 1024, 1]⟩
abbrev S256x1x1024 : Shape := ⟨3, ![256, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x32x1024x3, .f32⟩
  | .hbm, ⟨1, _⟩ => ⟨S8x32x1024x3, .f32⟩
  | .hbm, ⟨2, _⟩ => ⟨S8x32x3x1024, .f32⟩
  | .hbm, ⟨3, _⟩ => ⟨S256x1024x3, .f32⟩
  | .hbm, ⟨4, _⟩ => ⟨S256x1024x3, .f32⟩
  | .hbm, ⟨5, _⟩ => ⟨S256x1024x3, .f32⟩
  | .hbm, ⟨6, _⟩ => ⟨S_, .f32⟩
  | .hbm, ⟨7, _⟩ => ⟨S256x1024, .f32⟩
  | .hbm, ⟨8, _⟩ => ⟨S256x1024x3, .f32⟩
  | .hbm, ⟨9, _⟩ => ⟨S_, .f32⟩
  | .hbm, ⟨10, _⟩ => ⟨S256x1024, .f32⟩
  | .hbm, ⟨11, _⟩ => ⟨S256x1024x1024, .f32⟩
  | .hbm, ⟨12, _⟩ => ⟨S256x1024x1, .f32⟩
  | .hbm, ⟨13, _⟩ => ⟨S256x1x1024, .f32⟩
  | .hbm, ⟨14, _⟩ => ⟨S256x1024x1024, .f32⟩
  | .hbm, ⟨15, _⟩ => ⟨S256x1024x1024, .f32⟩
  | .hbm, ⟨16, _⟩ => ⟨S256x1024x1024, .f32⟩
  | .hbm, ⟨17, _⟩ => ⟨S_, .f32⟩
  | .hbm, ⟨18, _⟩ => ⟨S256x1024x1024, .f32⟩
  | .hbm, ⟨19, _⟩ => ⟨S256x1024x1024, .f32⟩
  | .hbm, ⟨20, _⟩ => ⟨S256x1024x1024, .f32⟩
  | .hbm, ⟨21, _⟩ => ⟨S_, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  transposes_S8x32x1024x3_S8x32x3x1024_0_1_3_2 : S8x32x1024x3.Transposes [0, 1, 3, 2] S8x32x3x1024
  shapeCasts_S8x32x3x1024_S256x1024x3 : S8x32x3x1024.ShapeCasts S256x1024x3
  shapeCasts_S8x32x1024x3_S256x1024x3 : S8x32x1024x3.ShapeCasts S256x1024x3
  reducesTo_S256x1024x3_S256x1024_d2 : S256x1024x3.ReducesTo [2] S256x1024
  h_S_ : 0 < S_.numel
  bcast_S256x1024_S256x1024x1_0_1 : S256x1024.BroadcastsInDim S256x1024x1 (![0, 1] : Fin 2 → Fin S256x1024x1.rank)
  bcast_S256x1024_S256x1x1024_0_2 : S256x1024.BroadcastsInDim S256x1x1024 (![0, 2] : Fin 2 → Fin S256x1x1024.rank)
  bcast_S256x1024x1_S256x1024x1024_0_1_2 : S256x1024x1.BroadcastsInDim S256x1024x1024 (![0, 1, 2] : Fin 3 → Fin S256x1024x1024.rank)
  bcast_S256x1x1024_S256x1024x1024_0_1_2 : S256x1x1024.BroadcastsInDim S256x1024x1024 (![0, 1, 2] : Fin 3 → Fin S256x1024x1024.rank)
  bcast_S_S256x1024x1024 : S_.BroadcastsInDim S256x1024x1024 (![] : Fin 0 → Fin S256x1024x1024.rank)
  reducesTo_S256x1024x1024_S256x1024_d2 : S256x1024x1024.ReducesTo [2] S256x1024
  reducesTo_S256x1024x1024_S256x1024_d1 : S256x1024x1024.ReducesTo [1] S256x1024
  reducesTo_S256x1024_S_d0_1 : S256x1024.ReducesTo [0, 1] S_
  dot_S256x1024x3_S256x1024x3_S256x1024x1024_2_2_1_1_0_0_wf : DotDims.WF S256x1024x3 S256x1024x3 S256x1024x1024 [2] [2] [1] [1] [0] [0]

variable [Facts₀]

def dot_S256x1024x3_S256x1024x3_S256x1024x1024_2_2_1_1_0_0 : DotDims S256x1024x3 S256x1024x3 S256x1024x1024 where
  lhsContracting := [2]
  rhsContracting := [2]
  lhsNonContracting := [1]
  rhsNonContracting := [1]
  lhsBatch := [0]
  rhsBatch := [0]
  wf := dot_S256x1024x3_S256x1024x3_S256x1024x1024_2_2_1_1_0_0_wf

class Facts : Prop extends Facts₀ where

variable [Facts]
-- ==== Proof.Chamfer.lean ====
/-
  The Chamfer sum of one batch of two point sets, as a function of the two sets alone.

  A batch holds two sets of 1024 points in three coordinates, `u` and `v`, each read as `u p k`: point `p`, coordinate `k`.
  The squared distance between point `p` of `u` and point `q` of `v` is written in its expanded form
  `(|u p|² + |v q|²) - 2 · ⟨u p, v q⟩`, with `|u p|² = ∑ k, u p k · u p k` and `⟨u p, v q⟩ = ∑ k, u p k · v q k`.
  For each point of `u` the distance to its nearest point of `v` is the minimum over `q` (`nearV`), for each point of `v` the
  distance to its nearest point of `u` the minimum over `p` (`nearU`); the batch's two Chamfer terms are the sums of these
  minima over the points (`sumNearV`, `sumNearU`). The minima start from `+∞` and the constant `2` is kept as the
  single-precision pattern both programs print, read at the extended reals; neither is ever evaluated.

  Everything is over the extended reals, where `+` and `min` are commutative and associative; nothing here needs a value to be
  finite. `loss` is the whole result: each family of minima summed over all batches and divided by the number of
  (batch, point) pairs, the two means added. Two re-indexings of sums close the file: a sum over the indices of a vector, and over those of a matrix, as sums over
  their coordinates.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- One batch's point set: 1024 points, three coordinates each. -/
abbrev Points : Type := Fin 1024 → Fin 3 → EReal

/-- The constant `2` of `-2·⟨x, y⟩`, as the pattern both programs print. -/
def two : EReal := Ideal.ofBits .f32 0x40000000#32

/-- The value a minimum starts from: the pattern of `+∞`. -/
def top : EReal := Ideal.ofBits .f32 0x7F800000#32

/-- `|u p|²`. -/
def sq (u : Points) (p : Fin 1024) : EReal := ∑ k : Fin 3, u p k * u p k

/-- `⟨u p, v q⟩`. -/
def inner (u v : Points) (p q : Fin 1024) : EReal := ∑ k : Fin 3, u p k * v q k

/-- The squared distance between point `p` of `u` and point `q` of `v`, expanded. -/
def dist (u v : Points) (p q : Fin 1024) : EReal := (sq u p + sq v q) - two * inner u v p q

/-- From point `p` of `u` to its nearest point of `v`. -/
def nearV (u v : Points) (p : Fin 1024) : EReal :=
  (Finset.univ : Finset (Fin 1024)).fold (FloatOps.minimumf (F := Ideal) (φ := .f32)) top (fun q => dist u v p q)

/-- From point `q` of `v` to its nearest point of `u`. -/
def nearU (u v : Points) (q : Fin 1024) : EReal :=
  (Finset.univ : Finset (Fin 1024)).fold (FloatOps.minimumf (F := Ideal) (φ := .f32)) top (fun p => dist u v p q)

/-- The batch's first Chamfer term: over the points of `u`, the distance to the nearest point of `v`, summed. -/
def sumNearV (u v : Points) : EReal := ∑ p : Fin 1024, nearV u v p

/-- The batch's second Chamfer term: over the points of `v`, the distance to the nearest point of `u`, summed. -/
def sumNearU (u v : Points) : EReal := ∑ q : Fin 1024, nearU u v q

/-! ## The loss over all batches -/

/-- An array of 256 batches of point sets. -/
abbrev Clouds : Type := (⟨3, ![256, 1024, 3]⟩ : Shape).Idx → EReal

/-- Batch `b` of an array of point sets. -/
def batch (A : Clouds) (b : Fin 256) : Points := fun p k => A (ix3 b p k)

/-- The value a sum starts from: the pattern of zero. -/
def zero : EReal := Ideal.ofBits .f32 0x00000000#32

/-- The number of (batch, point) pairs, `256 · 1024`, as the pattern both programs divide by. -/
def count : EReal := Ideal.ofBits .f32 0x48800000#32

/-- The Chamfer loss: the mean over all (batch, point) pairs of the distance from a point of `X` to its nearest point of `Y` in
    the same batch, plus the same mean the other way round — each mean written as both programs compute it, a sum from the
    zero pattern divided by the count. -/
def loss (X Y : Clouds) : EReal :=
  Ideal.div (zero + ∑ b : Fin 256, sumNearV (batch X b) (batch Y b)) count
    + Ideal.div (zero + ∑ b : Fin 256, sumNearU (batch X b) (batch Y b)) count

/-! ## Sums over a vector's and a matrix's indices, by coordinates -/

/-- A vector's index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Summing the rows' sums is summing the matrix: the regrouping that joins a per-batch total, summed over the batches, to
    the total over all (batch, point) pairs. -/
theorem sum_rows_eq_sum_all {M : Type*} [AddCommMonoid M] {n0 n1 : Nat} (g : Fin n0 → Fin n1 → M) :
    ∑ a : Fin n0, ∑ b : Fin n1, g a b = ∑ i : (⟨2, ![n0, n1]⟩ : Shape).Idx, g (i 0) (i 1) :=
  (sum_idx2 (fun i : (⟨2, ![n0, n1]⟩ : Shape).Idx => g (i 0) (i 1))).symm

end Cert.Chamfer

end
-- ==== Proof.Body.lean ====
/-
  What the kernel body computes from its two input blocks, at the extended reals.

  The body loads a batch's two point sets as `[1, 1024, 3]` blocks, forms the `1024 × 1024` matrix of expanded squared
  distances `(|x p|² + |y q|²) - 2 · ⟨x p, y q⟩` — the squared norms by a sum over the three coordinates, the inner products
  by a matrix product contracting the coordinate axis of both operands (its operands narrowed to sixteen bits first, which
  at the extended reals changes nothing) —, takes the minimum of every row and of every column, sums each family of minima,
  and stores a `[1, 1, 128]` block whose lane 0 holds the first total, lane 1 the second and every other lane zero.

  The body's one payload is restated as a composition of named pieces (`flat`, `sqRows`, `cross`, `downRows`, `alongCols`,
  `distMat`, `minOverCols`, `minOverRows`, `total`, `lanes`); each piece is read at an index by one lemma; `pay_apply` joins
  them: the stored block at lane `l` is `Chamfer.sumNearV`, `Chamfer.sumNearU` or zero of the blocks' rows.
-/
import proofs.«178056_j53042846105607_1_alg».proof.Proof.Gen.KernelIdeal.Skeleton
import proofs.«178056_j53042846105607_1_alg».proof.Proof.Chamfer
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

open scoped BigOperators

namespace Cert.KernelIdeal.Body

open Cert.KernelIdeal Cert.KernelIdeal.Gen Idealize.ShloMosaic Idealize.ShloMosaic.ValueIdx Cert.Chamfer

/-! ## The pieces -/

/-- A block `[1, 1024, 3]` seen as the matrix `[1024, 3]` of its points. -/
def flat (x : Vec Ideal S1x1024x3 .f32) : FVec Ideal S1024x3 .f32 := shapeCast S1024x3 x shapeCasts_S1x1024x3_S1024x3

/-- The squared norm of every point: the row sums of the entrywise square. -/
def sqRows (w : FVec Ideal S1024x3 .f32) : FVec Ideal S1024 .f32 :=
  multiReduction .add [1] S1024 (mulf w w) 0x00000000#32 reduces_S1024x3_S1024 (.inl rfl) rfl

/-- All inner products between the points of `a` and the points of `b`: the product contracting both coordinate axes, into
    a zero accumulator. -/
def cross (a b : FVec Ideal S1024x3 .f32) : FVec Ideal S1024x1024 .f32 :=
  matmul dot_S1024x3_S1024x3_S1024x1024_1_1_0_0_n_n none (truncf .bf16 a bitsLt_bf16_f32) (truncf .bf16 b bitsLt_bf16_f32)
    (constant S1024x1024 .f32 0x00000000#32)

/-- A vector laid down the rows of a square matrix: entry `(p, q)` is `s p`. -/
def downRows (s : FVec Ideal S1024 .f32) : FVec Ideal S1024x1024 .f32 :=
  broadcastTo S1024x1024 (shapeCast S1024x1 s shapeCasts_S1024_S1024x1) broadcasts_S1024x1_S1024x1024

/-- A vector laid along the columns of a square matrix: entry `(p, q)` is `s q`. -/
def alongCols (s : FVec Ideal S1024 .f32) : FVec Ideal S1024x1024 .f32 :=
  broadcastTo S1024x1024 (transpose S1x1024 [1, 0] (shapeCast S1024x1 s shapeCasts_S1024_S1024x1) transposes_S1024x1_p1_0_S1x1024)
    broadcasts_S1x1024_S1024x1024

/-- The matrix of expanded squared distances between the points of `a` and the points of `b`. -/
def distMat (a b : FVec Ideal S1024x3 .f32) : FVec Ideal S1024x1024 .f32 :=
  subf (addf (downRows (sqRows a)) (alongCols (sqRows b)))
    (mulf (broadcast S1024x1024 (Scalar.ofBits (F := Ideal) .f32 0x40000000#32)) (cross a b))

/-- Every row's minimum (over the column index), from `+∞`. -/
def minOverCols (d : FVec Ideal S1024x1024 .f32) : FVec Ideal S1024 .f32 :=
  multiReduction .minimumf [1] S1024 d 0x7F800000#32 reduces_S1024x1024_S1024 (.inl rfl) rfl

/-- Every column's minimum (over the row index), from `+∞`. -/
def minOverRows (d : FVec Ideal S1024x1024 .f32) : FVec Ideal S1024 .f32 :=
  multiReduction .minimumf [0] S1024 d 0x7F800000#32 reduces_S1024x1024_S1024_2 (.inl rfl) rfl

/-- The sum of a vector's entries, as the body takes it: the vector as one row, the row summed, the one entry extracted. -/
def total (w : FVec Ideal S1024 .f32) : Ideal .f32 :=
  extractAt ![0, 0] (shapeCast S1x1 (multiReduction .add [1] S1 (shapeCast S1x1024 w shapeCasts_S1024_S1x1024) 0x00000000#32
    reduces_S1x1024_S1 (.inl rfl) rfl) shapeCasts_S1_S1x1) inpos_S1x1_p0_0

/-- The stored row of 128 lanes: `a` in lane 0, `b` in lane 1, zero elsewhere. -/
def lanes (a b : Ideal .f32) : FVec Ideal S1x128 .f32 :=
  select (cmpi .eq (iota .tc S1x128 32 [1] iota_S1x128_d1_w32) (broadcast S1x128 0#32)) (broadcast S1x128 a)
    (select (cmpi .eq (iota .tc S1x128 32 [1] iota_S1x128_d1_w32) (broadcast S1x128 1#32)) (broadcast S1x128 b)
      (broadcast S1x128 (Scalar.ofBits (F := Ideal) .f32 0x00000000#32)))

/-- The body's payload is the composition of the pieces. -/
theorem pay2_eq (x0 x1 : Vec Ideal S1x1024x3 .f32) :
    k0_pay2 (F := Ideal) x0 x1
      = lanes (total (minOverCols (distMat (flat x0) (flat x1)))) (total (minOverRows (distMat (flat x0) (flat x1)))) := rfl

/-! ## Each piece at an index -/

theorem flat_apply (x : Vec Ideal S1x1024x3 .f32) (p : Fin 1024) (k : Fin 3) : flat x (ix2 p k) = x (ix3 (0 : Fin 1) p k) :=
  shapeCast_1ab_ab_apply x shapeCasts_S1x1024x3_S1024x3 p k

theorem sqRows_apply (w : FVec Ideal S1024x3 .f32) (p : Fin 1024) :
    sqRows w (ix1 p) = ∑ k : Fin 3, w (ix2 p k) * w (ix2 p k) := by
  unfold sqRows
  refine (Ideal.multiReduction_add_single (mulf w w) 0x00000000#32 reduces_S1024x3_S1024 (.inl rfl) rfl (ix1 p)).trans ?_
  refine Finset.sum_congr rfl fun k _ => ?_
  have e : reduces_S1024x3_S1024.lift (ix1 p) k = ix2 p k :=
    funext fun a => Fin.ext (by match a with | ⟨0, _⟩ => rfl | ⟨1, _⟩ => rfl)
  rw [e]
  rfl

/-- A vector cast to a one-column matrix reads, at `(p, 0)`, the vector at `p`. -/
theorem column_apply (s : FVec Ideal S1024 .f32) (p : Fin 1024) (u : Fin 1) :
    shapeCast S1024x1 s shapeCasts_S1024_S1024x1 (ix2 p u) = s (ix1 p) :=
  shapeCast_apply s shapeCasts_S1024_S1024x1 (ix2 p u) (ix1 p) (by
    have hu : u.val = 0 := by omega
    rw [Shape.rowMajor_val_one, Shape.rowMajor_val_two]
    show p.val = p.val * 1 + u.val
    rw [hu, Nat.mul_one, Nat.add_zero])

theorem downRows_apply (s : FVec Ideal S1024 .f32) (p q : Fin 1024) : downRows s (ix2 p q) = s (ix1 p) := by
  unfold downRows
  refine (broadcastTo_apply _ broadcasts_S1024x1_S1024x1024 (ix2 p q) (ix2 p (0 : Fin 1)) fun a => ?_).trans (column_apply s p 0)
  match a with
  | ⟨0, _⟩ => show p.val = if (1024 : Nat) = 1 then 0 else p.val; rw [if_neg (by decide)]
  | ⟨1, _⟩ => show 0 = if (1 : Nat) = 1 then 0 else q.val; rw [if_pos rfl]

theorem alongCols_apply (s : FVec Ideal S1024 .f32) (p q : Fin 1024) : alongCols s (ix2 p q) = s (ix1 q) := by
  unfold alongCols
  refine (broadcastTo_1b_ab_apply _ broadcasts_S1x1024_S1024x1024 p q).trans ?_
  refine (transpose_ix2_apply _ transposes_S1024x1_p1_0_S1x1024 (0 : Fin 1) q).trans ?_
  exact column_apply s q 0

/-! The matrix product: the operand indices at an output index and a contraction index, axis by axis. -/

theorem lhs_cross_0 (i : S1024x1024.Idx) (c : dot_S1024x3_S1024x3_S1024x1024_1_1_0_0_n_n.contr.Idx) :
    (dot_S1024x3_S1024x3_S1024x1024_1_1_0_0_n_n.lhsIdx i c 0).val = (i 0).val := by
  unfold DotDims.lhsIdx
  rw [dif_neg (show ¬(0 : Fin S1024x3.rank) ∈ dot_S1024x3_S1024x3_S1024x1024_1_1_0_0_n_n.lhsBatch by decide),
    dif_pos (show (0 : Fin S1024x3.rank) ∈ dot_S1024x3_S1024x3_S1024x1024_1_1_0_0_n_n.lhsNonContracting by decide)]
  rfl
theorem lhs_cross_1 (i : S1024x1024.Idx) (c : dot_S1024x3_S1024x3_S1024x1024_1_1_0_0_n_n.contr.Idx) :
    (dot_S1024x3_S1024x3_S1024x1024_1_1_0_0_n_n.lhsIdx i c 1).val = (c ⟨0, by decide⟩).val :=
  dot_S1024x3_S1024x3_S1024x1024_1_1_0_0_n_n.lhsIdx_val_of_single rfl i c
theorem rhs_cross_0 (i : S1024x1024.Idx) (c : dot_S1024x3_S1024x3_S1024x1024_1_1_0_0_n_n.contr.Idx) :
    (dot_S1024x3_S1024x3_S1024x1024_1_1_0_0_n_n.rhsIdx i c 0).val = (i 1).val := by
  unfold DotDims.rhsIdx
  rw [dif_neg (show ¬(0 : Fin S1024x3.rank) ∈ dot_S1024x3_S1024x3_S1024x1024_1_1_0_0_n_n.rhsBatch by decide),
    dif_pos (show (0 : Fin S1024x3.rank) ∈ dot_S1024x3_S1024x3_S1024x1024_1_1_0_0_n_n.rhsNonContracting by decide)]
  rfl
theorem rhs_cross_1 (i : S1024x1024.Idx) (c : dot_S1024x3_S1024x3_S1024x1024_1_1_0_0_n_n.contr.Idx) :
    (dot_S1024x3_S1024x3_S1024x1024_1_1_0_0_n_n.rhsIdx i c 1).val = (c ⟨0, by decide⟩).val :=
  dot_S1024x3_S1024x3_S1024x1024_1_1_0_0_n_n.rhsIdx_val_of_single rfl i c

theorem cross_apply (a b : FVec Ideal S1024x3 .f32) (p q : Fin 1024) :
    cross a b (ix2 p q) = ∑ k : Fin 3, a (ix2 p k) * b (ix2 q k) := by
  unfold cross
  simp only [matmul]
  refine (Ideal.matmul_constant_zero_apply dot_S1024x3_S1024x3_S1024x1024_1_1_0_0_n_n none _ _ (ix2 p q)).trans ?_
  rw [← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 p q)
      ((contrEquiv1 dot_S1024x3_S1024x3_S1024x1024_1_1_0_0_n_n 3 rfl rfl).symm k) = ix2 p k := funext fun ax => Fin.ext (by
    match ax with
    | ⟨0, _⟩ => exact lhs_cross_0 _ _
    | ⟨1, _⟩ => exact (lhs_cross_1 _ _).trans hk)
  have er : dot_S1024x3_S1024x3_S1024x1024_1_1_0_0_n_n.rhsIdx (ix2 p q)
      ((contrEquiv1 dot_S1024x3_S1024x3_S1024x1024_1_1_0_0_n_n 3 rfl rfl).symm k) = ix2 q k := funext fun ax => Fin.ext (by
    match ax with
    | ⟨0, _⟩ => exact rhs_cross_0 _ _
    | ⟨1, _⟩ => exact (rhs_cross_1 _ _).trans hk)
  rw [el, er]
  rfl

/-- The distance matrix at `(p, q)` is the expanded squared distance between row `p` of `a` and row `q` of `b`. -/
theorem distMat_apply (a b : FVec Ideal S1024x3 .f32) (p q : Fin 1024) :
    distMat a b (ix2 p q) = dist (fun p k => a (ix2 p k)) (fun q k => b (ix2 q k)) p q := by
  show (downRows (sqRows a) (ix2 p q) + alongCols (sqRows b) (ix2 p q)) - two * cross a b (ix2 p q) = _
  rw [downRows_apply, alongCols_apply, sqRows_apply, sqRows_apply, cross_apply]
  rfl

theorem minOverCols_apply (d : FVec Ideal S1024x1024 .f32) (p : Fin 1024) :
    minOverCols d (ix1 p)
      = (Finset.univ : Finset (Fin 1024)).fold (FloatOps.minimumf (F := Ideal) (φ := .f32)) top (fun q => d (ix2 p q)) := by
  unfold minOverCols
  refine (multiReduction_minimumf_eq_fold d 0x7F800000#32 reduces_S1024x1024_S1024 (.inl rfl) rfl (ix1 p)).trans ?_
  refine (reduces_S1024x1024_S1024.fold_filter_drop_single _ _ d (ix1 p)).trans ?_
  have e : (d ∘ reduces_S1024x1024_S1024.lift (ix1 p)) = fun q => d (ix2 p q) :=
    funext fun q => congrArg d (funext fun a => Fin.ext (by match a with | ⟨0, _⟩ => rfl | ⟨1, _⟩ => rfl))
  rw [e]
  rfl

theorem minOverRows_apply (d : FVec Ideal S1024x1024 .f32) (q : Fin 1024) :
    minOverRows d (ix1 q)
      = (Finset.univ : Finset (Fin 1024)).fold (FloatOps.minimumf (F := Ideal) (φ := .f32)) top (fun p => d (ix2 p q)) := by
  unfold minOverRows
  refine (multiReduction_minimumf_eq_fold d 0x7F800000#32 reduces_S1024x1024_S1024_2 (.inl rfl) rfl (ix1 q)).trans ?_
  refine (reduces_S1024x1024_S1024_2.fold_filter_drop_single _ _ d (ix1 q)).trans ?_
  have e : (d ∘ reduces_S1024x1024_S1024_2.lift (ix1 q)) = fun p => d (ix2 p q) :=
    funext fun p => congrArg d (funext fun a => Fin.ext (by match a with | ⟨0, _⟩ => rfl | ⟨1, _⟩ => rfl))
  rw [e]
  rfl

theorem total_apply (w : FVec Ideal S1024 .f32) : total w = ∑ p : Fin 1024, w (ix1 p) := by
  unfold total extractAt
  have e0 : (fun a => (⟨(![0, 0] : Fin 2 → Nat) a, inpos_S1x1_p0_0 a⟩ : Fin (S1x1.size a))) = ix2 (0 : Fin 1) (0 : Fin 1) :=
    funext fun a => Fin.ext (by match a with | ⟨0, _⟩ => rfl | ⟨1, _⟩ => rfl)
  refine (congrArg (shapeCast S1x1 _ shapeCasts_S1_S1x1) e0).trans ?_
  refine (shapeCast_a_1a_apply _ shapeCasts_S1_S1x1 0 0).trans ?_
  refine (Ideal.multiReduction_add_single _ 0x00000000#32 reduces_S1x1024_S1 (.inl rfl) rfl (ix1 (0 : Fin 1))).trans ?_
  refine Finset.sum_congr rfl fun k _ => ?_
  have e : reduces_S1x1024_S1.lift (ix1 (0 : Fin 1)) k = ix2 (0 : Fin 1) k :=
    funext fun a => Fin.ext (by match a with | ⟨0, _⟩ => rfl | ⟨1, _⟩ => rfl)
  rw [e]
  exact shapeCast_a_1a_apply w shapeCasts_S1024_S1x1024 0 k

/-- A lane number below 128, as a 32-bit word, is the word of `k` exactly when it is `k`. -/
theorem laneWord_eq_iff (n k : Nat) (hn : n < 128) (hk : k < 128) : BitVec.ofNat 32 n = BitVec.ofNat 32 k ↔ n = k := by
  constructor
  · intro h
    have h' := congrArg BitVec.toNat h
    rw [BitVec.toNat_ofNat, BitVec.toNat_ofNat] at h'
    omega
  · rintro rfl; rfl

theorem lanes_apply (a b : Ideal .f32) (l : Fin 128) :
    lanes a b (ix2 (0 : Fin 1) l)
      = if l.val = 0 then a else if l.val = 1 then b else Ideal.ofBits .f32 0x00000000#32 := by
  have hi : iota .tc S1x128 32 [1] iota_S1x128_d1_w32 (ix2 (0 : Fin 1) l) = BitVec.ofNat 32 l.val :=
    iota_single_apply .tc S1x128 32 1 iota_S1x128_d1_w32 (ix2 (0 : Fin 1) l)
  show Scalar.select (IntOp.cmpi .eq (iota .tc S1x128 32 [1] iota_S1x128_d1_w32 (ix2 (0 : Fin 1) l)) 0#32) a
      (Scalar.select (IntOp.cmpi .eq (iota .tc S1x128 32 [1] iota_S1x128_d1_w32 (ix2 (0 : Fin 1) l)) 1#32) b
        (Ideal.ofBits .f32 0x00000000#32)) = _
  rw [hi]
  have hl : l.val < 128 := l.isLt
  have c0 : (IntOp.cmpi .eq (BitVec.ofNat 32 l.val) 0#32 = 1) ↔ l.val = 0 :=
    StableHlo.Predicate.cmpi_eq_iff.trans (laneWord_eq_iff l.val 0 hl (by decide))
  have c1 : (IntOp.cmpi .eq (BitVec.ofNat 32 l.val) 1#32 = 1) ↔ l.val = 1 :=
    StableHlo.Predicate.cmpi_eq_iff.trans (laneWord_eq_iff l.val 1 hl (by decide))
  unfold Scalar.select
  by_cases h0 : l.val = 0
  · rw [if_pos h0]
    exact if_pos (c0.mpr h0)
  · rw [if_neg h0]
    refine (if_neg fun h => h0 (c0.mp h)).trans ?_
    by_cases h1 : l.val = 1
    · rw [if_pos h1]
      exact if_pos (c1.mpr h1)
    · rw [if_neg h1]
      exact if_neg fun h => h1 (c1.mp h)

/-! ## The stored block -/

/-- A block's points: point `p`, coordinate `k`. -/
def rows (x : Vec Ideal S1x1024x3 .f32) : Points := fun p k => x (ix3 (0 : Fin 1) p k)

/-- THE BODY'S STORE, lane by lane: the two Chamfer sums of the blocks' point sets in lanes 0 and 1, zero elsewhere. -/
theorem pay_apply (x0 x1 : Vec Ideal S1x1024x3 .f32) (l : Fin 128) :
    k0_pay1 (F := Ideal) (k0_pay2 (F := Ideal) x0 x1) (ix3 (0 : Fin 1) (0 : Fin 1) l)
      = if l.val = 0 then sumNearV (rows x0) (rows x1) else if l.val = 1 then sumNearU (rows x0) (rows x1)
        else Ideal.ofBits .f32 0x00000000#32 := by
  unfold k0_pay1
  refine (shapeCast_ab_1ab_apply _ shapeCasts_S1x128_S1x1x128 0 0 l).trans ?_
  rw [pay2_eq, lanes_apply, total_apply, total_apply]
  have hd : ∀ p q, distMat (flat x0) (flat x1) (ix2 p q) = dist (rows x0) (rows x1) p q := fun p q => by
    rw [distMat_apply]
    have ea : (fun p k => flat x0 (ix2 p k)) = rows x0 := funext fun p => funext fun k => flat_apply x0 p k
    have eb : (fun q k => flat x1 (ix2 q k)) = rows x1 := funext fun q => funext fun k => flat_apply x1 q k
    rw [ea, eb]
  simp only [minOverCols_apply, minOverRows_apply, hd]
  rfl

end Cert.KernelIdeal.Body

end
-- ==== Proof.KernelValue.lean ====
/-
  What the idealized kernel's program leaves in its result, as a function of the two arrays the region is launched on.

  The region runs the body once per batch: grid point `t` stages batch `t` of the array of `x` points and batch `t` of the
  array of `y` points (both `[256, 1024, 3]`), and writes back block `t` of the `[256, 1, 128]` output. So after the region the
  output array holds, at `(b, 0, l)`, the first Chamfer sum of batch `b` in lane 0, the second in lane 1 and zero in every
  other lane (`outArr`, `final`): the 256 blocks cover the array, and each is the body's store (Body.lean) of the batch's blocks.
  The host lines after the region slice lanes 0 and 1, sum each over the batches, divide each by `262144` and add (`tail`).
-/
import proofs.«178056_j53042846105607_1_alg».proof.Proof.Gen.KernelIdeal.Frame
import proofs.«178056_j53042846105607_1_alg».proof.Proof.Body
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.Chamfer
open Idealize.ShloMosaic.Pipeline (Dat)

variable (m : (ℓ : Loc nD τ sig) → Buf (Elt Ideal) ℓ) (ρ : Dev nD → PrngReg)

/-! ## The output array as a function of the two input arrays -/

/-- The output array: at `(b, 0, l)` the first Chamfer sum of batch `b` if `l = 0`, the second if `l = 1`, else zero. -/
def outArr (X Y : FVec Ideal S256x1024x3 .f32) : FVec Ideal S256x1x128 .f32 := fun i =>
  if (i 2).val = 0 then sumNearV (batch X (i 0)) (batch Y (i 0))
  else if (i 2).val = 1 then sumNearU (batch X (i 0)) (batch Y (i 0))
  else Ideal.ofBits .f32 0x00000000#32

/-- The two arrays as the region finds them, at their literal types. -/
abbrev xarr (c : Dev nD) : FVec Ideal S256x1024x3 .f32 := V m c main_v1
abbrev yarr (c : Dev nD) : FVec Ideal S256x1024x3 .f32 := V m c main_v2

/-- The two input blocks at a point, at their literal types. -/
abbrev xblk (c : Dev nD) (t : Fin cfg0.N) : Vec Ideal S1x1024x3 .f32 := iblk m c 0 t
abbrev yblk (c : Dev nD) (t : Fin cfg0.N) : Vec Ideal S1x1024x3 .f32 := iblk m c 1 t

/-- A grid point as a batch number. -/
abbrev bat (t : Fin cfg0.N) : Fin 256 := t.cast N_0

theorem hz : (![0, 0, 0] : Fin 3 → Nat) = fun _ => 0 := funext fun a => by fin_cases a <;> rfl

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The `x` block at point `t` is batch `t` of the `x` array. -/
theorem rows_xblk (c : Dev nD) (t : Fin cfg0.N) : Body.rows (xblk m c t) = batch (xarr m c) (bat t) := by
  obtain ⟨e0, e1, e2, -⟩ := idx_facts t
  funext p k
  show V m c main_v1 (((cfg0.win 0).blk t).view.emb (ix3 (0 : Fin 1) p k)) = V m c main_v1 (ix3 (bat t) p k)
  refine congrArg (V m c main_v1) (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 3 + 1 * k.val = k.val; omega

/-- The `y` block at point `t` is batch `t` of the `y` array. -/
theorem rows_yblk (c : Dev nD) (t : Fin cfg0.N) : Body.rows (yblk m c t) = batch (yarr m c) (bat t) := by
  obtain ⟨-, -, -, e0, e1, e2, -⟩ := idx_facts t
  funext p k
  show V m c main_v2 (((cfg0.win 1).blk t).view.emb (ix3 (0 : Fin 1) p k)) = V m c main_v2 (ix3 (bat t) p k)
  refine congrArg (V m c main_v2) (funext fun a => Fin.ext ?_)
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 3 + 1 * k.val = k.val; omega

/-- WHAT POINT `t` WRITES BACK is block `t` of `outArr` of the two arrays as the region finds them. -/
theorem flushed_eq (c : Dev nD) (t : Fin cfg0.N) :
    (dats m 0 c).flushed 2 t = ((cfg0.win 2).blk t).view.read (Elt Ideal) (outArr (xarr m c) (yarr m c)) := by
  show (cfg0.win 2).cut (grid0.coords t) ((dats m 0 c).after 2 t) = _
  rw [after0_2]
  unfold out0_2
  rw [View.canon_unit_zero hz]
  simp only [View.ld_unit_zero (S := S1x1024x3) hz]
  obtain ⟨-, -, -, -, -, -, e0, e1, e2⟩ := idx_facts t
  refine funext fun (j : S1x1x128.Idx) => ?_
  obtain ⟨u, v, l, rfl⟩ : ∃ (u : Fin 1) (v : Fin 1) (l : Fin 128), j = ix3 u v l := ⟨j 0, j 1, j 2, eq_ix3 j⟩
  obtain rfl : u = 0 := Subsingleton.elim _ _
  obtain rfl : v = 0 := Subsingleton.elim _ _
  show k0_pay1 (F := Ideal) (k0_pay2 (F := Ideal) (xblk m c t) (yblk m c t)) (ix3 (0 : Fin 1) (0 : Fin 1) l)
    = outArr (xarr m c) (yarr m c) (((cfg0.win 2).blk t).view.emb (ix3 (0 : Fin 1) (0 : Fin 1) l))
  have he : ((cfg0.win 2).blk t).view.emb (ix3 (0 : Fin 1) (0 : Fin 1) l) = ix3 (bat t) (0 : Fin 1) l :=
    funext fun a => Fin.ext (by
      match a with
      | ⟨0, _⟩ => show win0_2.index t (0 : Fin 3) * 1 + 1 * 0 = t.val; omega
      | ⟨1, _⟩ => show win0_2.index t (1 : Fin 3) * 1 + 1 * 0 = 0; omega
      | ⟨2, _⟩ => show win0_2.index t (2 : Fin 3) * 128 + 1 * l.val = l.val; omega)
  rw [he, Body.pay_apply, rows_xblk, rows_yblk]
  rfl

/-- An index of the output array is in point `t`'s block iff each coordinate is in the block's range on its axis. -/
theorem mem_blk (t : Fin cfg0.N) (i : S256x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v3).slice (win0_2.rect t)).set ↔ _
  rw [View.set_slice_whole, Rect.mem_set_unit]
  exact Iff.rfl

/-- Every index `(b, 0, l)` of the output array lies in the block of point `b`. -/
theorem cover (i : S256x1x128.Idx) : ∃ t : Fin cfg0.N, (cfg0.win 2).flush t = true ∧ i ∈ ((cfg0.win 2).blk t).view.set := by
  have h0 : (i 0).val < 256 := (i 0).isLt
  have h1 : (i 1).val < 1 := (i 1).isLt
  have h2 : (i 2).val < 128 := (i 2).isLt
  refine ⟨(i 0).cast N_0.symm, flush0_2 _, ?_⟩
  obtain ⟨-, -, -, -, -, -, e0, e1, e2⟩ := idx_facts ((i 0).cast N_0.symm)
  rw [mem_blk]
  intro a
  match a with
  | ⟨0, _⟩ => show win0_2.index ((i 0).cast N_0.symm) (0 : Fin 3) * 1 ≤ (i 0).val ∧ (i 0).val < win0_2.index ((i 0).cast N_0.symm) (0 : Fin 3) * 1 + 1; rw [e0]; show (i 0).val * 1 ≤ (i 0).val ∧ (i 0).val < (i 0).val * 1 + 1; omega
  | ⟨1, _⟩ => show win0_2.index ((i 0).cast N_0.symm) (1 : Fin 3) * 1 ≤ (i 1).val ∧ (i 1).val < win0_2.index ((i 0).cast N_0.symm) (1 : Fin 3) * 1 + 1; omega
  | ⟨2, _⟩ => show win0_2.index ((i 0).cast N_0.symm) (2 : Fin 3) * 128 ≤ (i 2).val ∧ (i 2).val < win0_2.index ((i 0).cast N_0.symm) (2 : Fin 3) * 128 + 128; omega

/-- THE OUTPUT ARRAY after the region: `outArr` of the two arrays as the region finds them. -/
theorem final (c : Dev nD) : (dats m 0 c).arrAt 2 cfg0.N = outArr (xarr m c) (yarr m c) :=
  (dats m 0 c).arrAt_eq_of_cover 2 (outArr (xarr m c) (yarr m c)) (fun t _ => flushed_eq m c t) cover

/-! ## The host lines after the region -/

/-- The host lines after the region, as one function of the output array: lanes 0 and 1 sliced out, each summed over the
    batches from the zero pattern and divided by the count, the two quotients added. -/
def tailFn (o : FVec Ideal S256x1x128 .f32) : FVec Ideal S_ .f32 :=
  addf
    (Host.divf
      (Host.reduceAdd (F := Ideal)
        (shapeCast S256 (extractStridedSlice S256x1x1 ![0, 0, 0] o slices_S256x1x128_S256x1x1_0_0_0) shapeCasts_S256x1x1_S256)
        (constant (F := Ideal) S_ .f32 0x00000000#32) reducesTo_S256_S_d0 h_S_)
      (constant (F := Ideal) S_ .f32 0x48800000#32))
    (Host.divf
      (Host.reduceAdd (F := Ideal)
        (shapeCast S256 (extractStridedSlice S256x1x1 ![0, 0, 1] o slices_S256x1x128_S256x1x1_0_0_1) shapeCasts_S256x1x1_S256)
        (constant (F := Ideal) S_ .f32 0x00000000#32) reducesTo_S256_S_d0 h_S_)
      (constant (F := Ideal) S_ .f32 0x48800000#32))

/-- From any contents of the buffers, the lines after the region leave `tailFn` of the output array in the result. -/
theorem after_tail (W : Valuation τ sig (Elt Ideal)) :
    StableHlo.after hostOps1 W (Proc.devRef .tc main_v12) = tailFn (W (Proc.devRef .tc main_v3)) := by
  after_results
  rfl

/-- Lane `k` of the output array, sliced out and cast to a vector over the batches, reads at batch `b` the array at `(b, 0, k)`. -/
theorem lane_apply (o : FVec Ideal S256x1x128 .f32) (k : Nat) (hk : k < 128) (hs : S256x1x128.Slices ![0, 0, k] S256x1x1) (b : Fin 256) :
    shapeCast S256 (extractStridedSlice S256x1x1 ![0, 0, k] o hs) shapeCasts_S256x1x1_S256 (ix1 b) = o (ix3 b (0 : Fin 1) ⟨k, hk⟩) := by
  refine (shapeCast_apply _ shapeCasts_S256x1x1_S256 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ o hs _ (ix3 b (0 : Fin 1) ⟨k, hk⟩) fun a => ?_
    match a with
    | ⟨0, _⟩ => show b.val = 0 + b.val; omega
    | ⟨1, _⟩ => show 0 = 0 + 0; rfl
    | ⟨2, _⟩ => show k = k + 0; rfl

/-- The host's sum of a vector over the batches, from the zero pattern. -/
theorem hostSum_apply (w : FVec Ideal S256 .f32) (i : S_.Idx) :
    Host.reduceAdd (F := Ideal) w (constant (F := Ideal) S_ .f32 0x00000000#32) reducesTo_S256_S_d0 h_S_ i
      = zero + ∑ b : Fin 256, w (ix1 b) := by
  simp only [Host.reduceAdd, Ideal.hostReduceAdd_def]
  refine (Ideal.hostReduceAdd_total reducesTo_S256_S_d0 (fun b => b.elim0) w _ i).trans ?_
  rw [sum_idx1]
  rfl

/-- The lines after the region, applied to the output array the region leaves, give the loss. -/
theorem tailFn_outArr (X Y : FVec Ideal S256x1024x3 .f32) : tailFn (outArr X Y) = fun _ => loss X Y := by
  funext i
  unfold tailFn
  show Ideal.div (Host.reduceAdd (F := Ideal) _ _ reducesTo_S256_S_d0 h_S_ i) count
    + Ideal.div (Host.reduceAdd (F := Ideal) _ _ reducesTo_S256_S_d0 h_S_ i) count = _
  rw [hostSum_apply, hostSum_apply]
  simp only [lane_apply _ 0 (by decide), lane_apply _ 1 (by decide)]
  rfl

/-- THE RESULT after the whole program: the loss of the two arrays as the region finds them. -/
theorem tail_eq (c : Dev nD) :
    Pipeline.afterTail₀ cfgs (dats m) 0 (V0 m) [hostOps1] c main_v12 = fun _ => loss (xarr m c) (yarr m c) := by
  unfold Pipeline.afterTail₀
  show StableHlo.after hostOps1 _ (Proc.devRef .tc main_v12) = _
  rw [after_tail, (Pipeline.withArrays_arr spec0 launch0.win.arr_inj c _ _ 2).trans (final m c)]
  exact tailFn_outArr _ _

/-! ## The arrays the region is launched on -/

/-- The `x` array is the second argument, its last two axes exchanged, recast to `[256, 1024, 3]`. -/
theorem xarr_eq (c : Dev nD) :
    xarr m c = shapeCast S256x1024x3 (transpose S8x32x3x1024 [0, 1, 3, 2] (m ((c.tc : Thread nD τ).loc main_arg1))
      transposes_S8x32x1024x3_S8x32x3x1024_0_1_3_2) shapeCasts_S8x32x3x1024_S256x1024x3 := by
  show StableHlo.after hostOps0 (fun b => m (c, b)) (Proc.devRef .tc main_v1) = _
  after_results
  rfl

/-- The `y` array is the first argument recast to `[256, 1024, 3]`. -/
theorem yarr_eq (c : Dev nD) :
    yarr m c = shapeCast S256x1024x3 (m ((c.tc : Thread nD τ).loc main_arg0)) shapeCasts_S8x32x1024x3_S256x1024x3 := by
  show StableHlo.after hostOps0 (fun b => m (c, b)) (Proc.devRef .tc main_v2) = _
  after_results
  rfl

/-! ## The run -/

/-- Every weakly fair execution of the idealized kernel's program terminates with the loss of the two launched arrays in
    its result and its arguments unchanged. -/
theorem run : θ_run defs (onTc (τ := τ) (main (F := Ideal))) ⟨m, fun _ => 0, ρ⟩ fun r => ∀ c : Dev nD,
      r.2.mem ((c.tc : Thread nD τ).loc main_v12) = (fun _ => loss (xarr m c) (yarr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v12 (Pipeline.mem_restRefs_of main_v12 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.RefValue.lean ====
/-
  What the reference computes, as the same function of the same two arrays.

  The reference forms, for all 256 batches at once, the squared norms of the `x` points and of the `y` points (sums over the
  coordinate axis, from the zero pattern), all inner products (a batched product contracting the coordinate axis), the
  array `[256, 1024, 1024]` of expanded squared distances, its minima over the last axis and over the middle axis (from
  `+∞`), and the mean of each family of minima: the sum over all (batch, point) pairs from the zero pattern, divided by
  `262144`. Read at an index, every stage is the matching stage of Chamfer.lean of the batch's two point sets; the sum over
  all pairs is the sum over the batches of the per-batch sums (`Chamfer.sum_rows_eq_sum_all`), so the result is `Chamfer.loss`
  of the two arrays the reference builds from its arguments by the same exchange of axes and recasts as the kernel's program.
-/
import proofs.«178056_j53042846105607_1_alg».proof.Proof.ReferenceRead
import proofs.«178056_j53042846105607_1_alg».proof.Proof.Chamfer
import Idealize.ShloMosaic.PureOps.Reduce

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx Cert.Chamfer

variable (x0 x1 : (⟨S8x32x1024x3, .f32⟩ : BufTy).Contents (Elt Ideal))

/-- The array of `x` points the reference works on: the second argument, last two axes exchanged, recast. -/
abbrev xs : Clouds := val_main_v1 (F := Ideal) x1
/-- The array of `y` points the reference works on: the first argument recast. -/
abbrev ys : Clouds := val_main_v2 (F := Ideal) x0

/-! ## The index maps of the stages, at indices written by coordinates -/

theorem e10 (b : Fin 256) (p q : Fin 1024) : idx_main_v10 (ix3 b p q) = ix3 b p (0 : Fin 1) :=
  funext fun a => Fin.ext (by match a with | ⟨0, _⟩ => rfl | ⟨1, _⟩ => rfl | ⟨2, _⟩ => rfl)
theorem e8 (b : Fin 256) (p : Fin 1024) (u : Fin 1) : idx_main_v8 (ix3 b p u) = ix2 b p :=
  funext fun a => Fin.ext (by match a with | ⟨0, _⟩ => rfl | ⟨1, _⟩ => rfl)
theorem e4 (b : Fin 256) (p : Fin 1024) (k : Fin 3) : idx_main_v4 (ix2 b p) k = ix3 b p k :=
  funext fun a => Fin.ext (by match a with | ⟨0, _⟩ => rfl | ⟨1, _⟩ => rfl | ⟨2, _⟩ => rfl)
theorem e11 (b : Fin 256) (p q : Fin 1024) : idx_main_v11 (ix3 b p q) = ix3 b (0 : Fin 1) q :=
  funext fun a => Fin.ext (by match a with | ⟨0, _⟩ => rfl | ⟨1, _⟩ => rfl | ⟨2, _⟩ => rfl)
theorem e9 (b : Fin 256) (u : Fin 1) (q : Fin 1024) : idx_main_v9 (ix3 b u q) = ix2 b q :=
  funext fun a => Fin.ext (by match a with | ⟨0, _⟩ => rfl | ⟨1, _⟩ => rfl)
theorem e6 (b : Fin 256) (q : Fin 1024) (k : Fin 3) : idx_main_v6 (ix2 b q) k = ix3 b q k :=
  funext fun a => Fin.ext (by match a with | ⟨0, _⟩ => rfl | ⟨1, _⟩ => rfl | ⟨2, _⟩ => rfl)
theorem el7 (b : Fin 256) (p q : Fin 1024) (k : Fin 3) : lidx_main_v7 (ix3 b p q) k = ix3 b p k :=
  funext fun a => Fin.ext (by match a with | ⟨0, _⟩ => rfl | ⟨1, _⟩ => rfl | ⟨2, _⟩ => rfl)
theorem er7 (b : Fin 256) (p q : Fin 1024) (k : Fin 3) : ridx_main_v7 (ix3 b p q) k = ix3 b q k :=
  funext fun a => Fin.ext (by match a with | ⟨0, _⟩ => rfl | ⟨1, _⟩ => rfl | ⟨2, _⟩ => rfl)

/-! ## The stages -/

/-- The squared norm of point `p` of batch `b` of the `x` array. -/
theorem sqx_apply (b : Fin 256) (p : Fin 1024) : val_main_v4 (F := Ideal) x1 (ix2 b p) = sq (batch (xs x1) b) p := by
  rw [val_main_v4_apply]
  simp only [e4, val_main_v3_apply, val_main_cst_apply, Ideal.mulf_def, Ideal.ofBits_def, Ideal.ofBits_zero_f32, zero_add]
  rfl

/-- The squared norm of point `q` of batch `b` of the `y` array. -/
theorem sqy_apply (b : Fin 256) (q : Fin 1024) : val_main_v6 (F := Ideal) x0 (ix2 b q) = sq (batch (ys x0) b) q := by
  rw [val_main_v6_apply]
  simp only [e6, val_main_v5_apply, val_main_cst_0_apply, Ideal.mulf_def, Ideal.ofBits_def, Ideal.ofBits_zero_f32, zero_add]
  rfl

/-- The inner product of point `p` of `x` and point `q` of `y`, in batch `b`. -/
theorem inner_apply (b : Fin 256) (p q : Fin 1024) :
    val_main_v7 (F := Ideal) x0 x1 (ix3 b p q) = inner (batch (xs x1) b) (batch (ys x0) b) p q := by
  rw [val_main_v7_apply]
  simp only [el7, er7]
  rfl

/-- The array of expanded squared distances at `(b, p, q)`. -/
theorem dist_apply (b : Fin 256) (p q : Fin 1024) :
    val_main_v15 (F := Ideal) x0 x1 (ix3 b p q) = dist (batch (xs x1) b) (batch (ys x0) b) p q := by
  rw [val_main_v15_apply, val_main_v12_apply, val_main_v14_apply, val_main_v10_apply, e10, val_main_v8_apply, e8, sqx_apply,
    val_main_v11_apply, e11, val_main_v9_apply, e9, sqy_apply, val_main_v13_apply, val_main_cst_1_apply, inner_apply]
  rfl

theorem red_last : S256x1024x1024.Reduces [2] S256x1024 := by decide
theorem red_mid : S256x1024x1024.Reduces [1] S256x1024 := by decide

/-- The minimum over the last axis: from point `p` of `x` to its nearest point of `y`. -/
theorem nearV_apply (b : Fin 256) (p : Fin 1024) :
    val_main_v16 (F := Ideal) x0 x1 (ix2 b p) = nearV (batch (xs x1) b) (batch (ys x0) b) p := by
  unfold val_main_v16
  refine (Host.reduce_eq_fold_single (FloatOps.minimumf (F := Ideal) (φ := .f32)) (val_main_v15 (F := Ideal) x0 x1) (val_main_cst_2 (F := Ideal))
    reducesTo_S256x1024x1024_S256x1024_d2 red_last h_S_ (ix2 b p)).trans ?_
  have e : (val_main_v15 (F := Ideal) x0 x1 ∘ red_last.lift (ix2 b p)) = fun q => dist (batch (xs x1) b) (batch (ys x0) b) p q :=
    funext fun (q : Fin 1024) => by
      have ei : red_last.lift (ix2 b p) q = ix3 b p q :=
        funext fun a => Fin.ext (by match a with | ⟨0, _⟩ => rfl | ⟨1, _⟩ => rfl | ⟨2, _⟩ => rfl)
      show val_main_v15 (F := Ideal) x0 x1 (red_last.lift (ix2 b p) q) = _
      rw [ei, dist_apply]
  rw [e]
  rfl

/-- The minimum over the middle axis: from point `q` of `y` to its nearest point of `x`. -/
theorem nearU_apply (b : Fin 256) (q : Fin 1024) :
    val_main_v17 (F := Ideal) x0 x1 (ix2 b q) = nearU (batch (xs x1) b) (batch (ys x0) b) q := by
  unfold val_main_v17
  refine (Host.reduce_eq_fold_single (FloatOps.minimumf (F := Ideal) (φ := .f32)) (val_main_v15 (F := Ideal) x0 x1) (val_main_cst_3 (F := Ideal))
    reducesTo_S256x1024x1024_S256x1024_d1 red_mid h_S_ (ix2 b q)).trans ?_
  have e : (val_main_v15 (F := Ideal) x0 x1 ∘ red_mid.lift (ix2 b q)) = fun p => dist (batch (xs x1) b) (batch (ys x0) b) p q :=
    funext fun (p : Fin 1024) => by
      have ei : red_mid.lift (ix2 b q) p = ix3 b p q :=
        funext fun a => Fin.ext (by match a with | ⟨0, _⟩ => rfl | ⟨1, _⟩ => rfl | ⟨2, _⟩ => rfl)
      show val_main_v15 (F := Ideal) x0 x1 (red_mid.lift (ix2 b q) p) = _
      rw [ei, dist_apply]
  rw [e]
  rfl

/-! ## The result -/

/-- THE REFERENCE'S RESULT is the loss of the two arrays it builds from its arguments. -/
theorem result_eq (i : S_.Idx) : val_main_v22 (F := Ideal) x0 x1 i = loss (xs x1) (ys x0) := by
  have s1 : ∑ j : S256x1024.Idx, val_main_v16 (F := Ideal) x0 x1 j = ∑ b : Fin 256, sumNearV (batch (xs x1) b) (batch (ys x0) b) := by
    rw [sum_idx2]
    exact Finset.sum_congr rfl fun b _ => Finset.sum_congr rfl fun p _ => nearV_apply x0 x1 b p
  have s2 : ∑ j : S256x1024.Idx, val_main_v17 (F := Ideal) x0 x1 j = ∑ b : Fin 256, sumNearU (batch (xs x1) b) (batch (ys x0) b) := by
    rw [sum_idx2]
    exact Finset.sum_congr rfl fun b _ => Finset.sum_congr rfl fun q _ => nearU_apply x0 x1 b q
  rw [val_main_v22_apply, val_main_v19_apply, val_main_v21_apply, val_main_v18_apply, val_main_v20_apply, s1, s2]
  rfl

end Cert.ReferenceIdeal.RefValue

end
-- ==== Proof.lean ====
/-
  The Chamfer loss of 256 batches of two 1024-point sets in three coordinates: a kernel that works batch by batch against a
  reference that works on all batches at once, equal over the extended reals.

  Both programs first build the same two arrays `[256, 1024, 3]` from their arguments (one by exchanging its last two axes and
  recasting, the other by recasting). With `d b p q = (|x_b p|² + |y_b q|²) - 2·⟨x_b p, y_b q⟩` the expanded squared distance
  between point `p` of `x` and point `q` of `y` in batch `b`, both compute

      (0 + Σ_b Σ_p min_q d b p q) / 262144  +  (0 + Σ_b Σ_q min_p d b p q) / 262144.

  The kernel computes, per batch, the matrix `d b`, its row and column minima and the two sums of minima, stores them in
  lanes 0 and 1 of the batch's output block, and the host lines after the region sum each lane over the batches, divide and
  add (Proof/Body.lean, Proof/KernelValue.lean). The reference computes the whole array `d`, its minima over either point
  axis, and sums each family over all (batch, point) pairs at once (Proof/RefValue.lean). The two differ in how the sums are
  grouped — per batch then over batches, against over all pairs —, in the kernel's narrowing of the inner product's operands
  to sixteen bits, which is the identity at the extended reals, and in a matrix product against a batched product, both the
  same sum over the three coordinates. Addition and minimum on the extended reals are commutative and associative, so no
  value needs to be finite: the precondition is not used. Proof/Chamfer.lean holds the common function, `Chamfer.loss`.

  The three frames: the kernel's two are the generated frames of its one region; the reference has no region, and its frame is
  its run with the result dropped. The idealization rewrote nothing, so `preserves` is `True`.
-/
import proofs.«178056_j53042846105607_1_alg».proof.Defs
import proofs.«178056_j53042846105607_1_alg».proof.Proof.Gen.Kernel
import proofs.«178056_j53042846105607_1_alg».proof.Proof.Gen.Kernel.Skeleton
import proofs.«178056_j53042846105607_1_alg».proof.Proof.Gen.Kernel.Launch
import proofs.«178056_j53042846105607_1_alg».proof.Proof.Gen.Kernel.Points
import proofs.«178056_j53042846105607_1_alg».proof.Proof.Gen.Kernel.Frame
import proofs.«178056_j53042846105607_1_alg».proof.Proof.Gen.KernelIdeal
import proofs.«178056_j53042846105607_1_alg».proof.Proof.Gen.KernelIdeal.Skeleton
import proofs.«178056_j53042846105607_1_alg».proof.Proof.Gen.KernelIdeal.Launch
import proofs.«178056_j53042846105607_1_alg».proof.Proof.Gen.KernelIdeal.Points
import proofs.«178056_j53042846105607_1_alg».proof.Proof.Gen.KernelIdeal.Frame
import proofs.«178056_j53042846105607_1_alg».proof.Proof.Gen.ReferenceIdeal
import proofs.«178056_j53042846105607_1_alg».proof.Proof.Gen.Pre_finite_inputs
import proofs.«178056_j53042846105607_1_alg».proof.Proof.Gen.ReferenceIdeal.Run
import proofs.«178056_j53042846105607_1_alg».proof.Proof.ReferenceRead
import proofs.«178056_j53042846105607_1_alg».proof.Proof.KernelValue
import proofs.«178056_j53042846105607_1_alg».proof.Proof.RefValue
import Idealize.ShloMosaic.Adequacy
import Idealize.ShloMosaic.Init

noncomputable section

namespace Cert.Proof

open Idealize.ShloMosaic Idealize.SL.Sem

/-- The kernel's program as printed runs and leaves its arguments unchanged: its region's generated frame. -/
theorem frame_kernel : Cert.frame_Kernel := fun m ρ _ => Cert.Kernel.Gen.frame m ρ

/-- The same of the idealized kernel's program. -/
theorem frame_kernelIdeal : Cert.frame_KernelIdeal := fun m ρ _ => Cert.KernelIdeal.Gen.frame m ρ

/-- The reference is host operations only: its frame is its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `Chamfer.loss` of the two arrays `[256, 1024, 3]` built from the arguments: the kernel's program
    by the region's output array and the lines after it, the reference by its stages read at an index; from memories that
    agree on the arguments the two arrays are the same. -/
theorem algebraic : Cert.algebraic_KernelIdeal_ReferenceIdeal := by
  intro m ρ m' ρ' _ hagree
  refine ⟨fun c => fun _ => Cert.Chamfer.loss (Cert.KernelIdeal.KValue.xarr m c) (Cert.KernelIdeal.KValue.yarr m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  funext i
  rw [Cert.ReferenceIdeal.RefValue.result_eq, (hagree c).1, (hagree c).2]
  show Cert.Chamfer.loss _ _ = Cert.Chamfer.loss (Cert.KernelIdeal.KValue.xarr m c) (Cert.KernelIdeal.KValue.yarr m c)
  rw [Cert.KernelIdeal.KValue.xarr_eq, Cert.KernelIdeal.KValue.yarr_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
